-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel

variable [Facts]

def fn {F : FTy → Type} [FloatOps F] (main_arg0 : FVec F S8192x64 .f32) (main_arg1 : FVec F S8192x64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  main_v8
-- ==== Kernel.lean ====
abbrev S8192x64 : Shape := ⟨2, ![8192, 64]⟩
abbrev S64x8192 : Shape := ⟨2, ![64, 8192]⟩
abbrev S8192x8192 : Shape := ⟨2, ![8192, 8192]⟩
abbrev S1024x64 : Shape := ⟨2, ![1024, 64]⟩
abbrev S64x1024 : Shape := ⟨2, ![64, 1024]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S64x8192, .f32⟩
  | .hbm, ⟨3, _⟩ => ⟨S8192x8192, .f32⟩
  | .local _ .vmem, ⟨0, _⟩ => ⟨S1024x64, .f32⟩
  | .local _ .vmem, ⟨1, _⟩ => ⟨S1024x64, .f32⟩
  | .local _ .vmem, ⟨2, _⟩ => ⟨S64x1024, .f32⟩
  | .local _ .vmem, ⟨3, _⟩ => ⟨S64x1024, .f32⟩
  | .local _ .vmem, ⟨4, _⟩ => ⟨S1024x1024, .f32⟩
  | .local _ .vmem, ⟨5, _⟩ => ⟨S1024x1024, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  transposes_S8192x64_S64x8192_1_0 : S8192x64.Transposes [1, 0] S64x8192
  inb_S1024x64_S1024x64_0_0 : ∀ a, (![0, 0] : Fin 2 → Nat) a + S1024x64.size a ≤ S1024x64.size a
  h_S1024x64 : 0 < S1024x64.numel
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  reduces_S1024x64_S1024 : S1024x64.Reduces [1] S1024
  shapeCasts_S1024_S1024x1 : S1024.ShapeCasts S1024x1
  reduces_S64x1024_S1024 : S64x1024.Reduces [0] S1024
  shapeCasts_S1024_S1x1024 : S1024.ShapeCasts S1x1024
  bitsLt_bf16_f32 : FTy.bits .bf16 < FTy.bits .f32
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x64_S64x1024_S1024x1024_1_0_0_1_n_n_wf : DotDims.WF S1024x64 S64x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S8192x64.size a
  hwx0_0 : ∀ i : grid0.Coords, EltTy.bits .f32 = 32 ∨ (Rect.block (s := S8192x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x1024.size a ≤ S64x8192.size a
  hwx0_1 : ∀ i : grid0.Coords, EltTy.bits .f32 = 32 ∨ (Rect.block (s := S64x8192) S64x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)

variable [Facts₀]

def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x64 : Shape := ⟨2, ![8192, 64]⟩
abbrev S_ : Shape := ⟨0, ![]⟩
abbrev S8192 : Shape := ⟨1, ![8192]⟩
abbrev S64x8192 : Shape := ⟨2, ![64, 8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 26
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x64, .f32⟩
  | .hbm, ⟨3, _⟩ => ⟨S_, .f32⟩
  | .hbm, ⟨4, _⟩ => ⟨S8192, .f32⟩
  | .hbm, ⟨5, _⟩ => ⟨S8192x64, .f32⟩
  | .hbm, ⟨6, _⟩ => ⟨S_, .f32⟩
  | .hbm, ⟨7, _⟩ => ⟨S8192, .f32⟩
  | .hbm, ⟨8, _⟩ => ⟨S64x8192, .f32⟩
  | .hbm, ⟨9, _⟩ => ⟨S8192x8192, .f32⟩
  | .hbm, ⟨10, _⟩ => ⟨S8192x1, .f32⟩
  | .hbm, ⟨11, _⟩ => ⟨S1x8192, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S8192x8192, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  reducesTo_S8192x64_S8192_d1 : S8192x64.ReducesTo [1] S8192
  h_S_ : 0 < S_.numel
  transposes_S8192x64_S64x8192_1_0 : S8192x64.Transposes [1, 0] S64x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x64_S64x8192_S8192x8192_1_0_0_1_n_n_wf : DotDims.WF S8192x64 S64x8192 S8192x8192 [1] [0] [0] [1] [] []

variable [Facts₀]

def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.RbfSpec.lean ====
/-
  The radial-basis-function kernel matrix of two point sets, as ONE function of the two arrays, entry by entry.

  For points `A_p`, `B_q` in 64 coordinates (8192 of each) the entry at `(p, q)` is
    `exp (-1 · max (‖A_p‖² + ‖B_q‖² - 2 · ⟨A_p, B_q⟩) 0)`,
  the squared distance written through the two squared norms and the inner product, clamped at zero and negated under
  the exponential. Each of the three scalars is a sum over the 64 coordinates; on the extended reals such a sum does not
  depend on the order or grouping of its terms, so however a program tiles the points or lays the second set out
  (points along rows or along columns) it reads these same sums. The constants `-1` and `2` stay the words the
  programs print; only the zero word is evaluated (it is the additive unit and the clamp's floor).
-/
import Idealize.ShloMosaic.PureOps.Ideal
import Idealize.ShloMosaic.PureOps.Ideal.Laws
import Idealize.ShloMosaic.Lib.ValueIdx

noncomputable section

open scoped BigOperators

namespace Cert.Rbf

open Idealize.ShloMosaic Idealize.ShloMosaic.ValueIdx

/-- A point set: 8192 points of 64 coordinates. -/
abbrev Pts : Shape := ⟨2, ![8192, 64]⟩
/-- The kernel matrix: one entry per pair of points. -/
abbrev Gram : Shape := ⟨2, ![8192, 8192]⟩

/-- `‖A_p‖²`: the sum over the coordinates of the squares. -/
def sqNorm (A : FVec Ideal Pts .f32) (p : Fin 8192) : EReal := ∑ k : Fin 64, A (ix2 p k) * A (ix2 p k)

/-- `⟨A_p, B_q⟩`: the sum over the coordinates of the products. -/
def inner (A B : FVec Ideal Pts .f32) (p q : Fin 8192) : EReal := ∑ k : Fin 64, A (ix2 p k) * B (ix2 q k)

/-- One entry from its three scalars: `exp (-1 · max (a + b - 2 · d) 0)`. -/
def entry (a b d : EReal) : EReal :=
  Ideal.exp (Ideal.ofBits .f32 0xBF800000#32 * max (a + b - Ideal.ofBits .f32 0x40000000#32 * d) 0)

/-- The kernel matrix of `A` against `B`. -/
def rbf (A B : FVec Ideal Pts .f32) : FVec Ideal Gram .f32 := fun i =>
  entry (sqNorm A (i 0)) (sqNorm B (i 1)) (inner A B (i 0) (i 1))

/-- The entry at `(p, q)`, the coordinates named. -/
theorem rbf_apply (A B : FVec Ideal Pts .f32) (p q : Fin 8192) :
    rbf A B (ix2 p q) = entry (sqNorm A p) (sqNorm B q) (inner A B p q) := rfl

end Cert.Rbf

end
-- ==== Proof.LibKeepdims.lean ====
/-
  Column forms of a kept unit axis, read at an index: a vector `[a]` viewed as the column `[a, 1]` reads its entry at
  the row, and a column `[a, 1]` broadcast along its unit axis to `[a, b]` reads, at `(p, c)`, the column's entry
  in row `p`. Together with the row forms (`[a]` as `[1, a]`, and `[1, b]` over `[a, b]`) these read a sum that
  keeps its reduced axis and is then broadcast against a two-dimensional tile.
-/
import Idealize.ShloMosaic.Lib.Pipeline.Value
import Idealize.ShloMosaic.Lib.ValueIdx

noncomputable section

namespace Cert.LibKeepdims

open Idealize.ShloMosaic Idealize.ShloMosaic.ValueIdx

variable {α : Type}

/-- A vector `[a]` cast to the column `[a, 1]` reads, at `(i, u)`, the vector at `i`: both have row-major position `i`,
    the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`: the row coordinate is
    kept (or is `0` already when `a = 1`), the unit axis reads its only coordinate. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims

end
-- ==== Proof.RbfTile.lean ====
/-
  One tile of the kernel: what the body computes from a block of 1024 points of the first set (one point per row,
  `[1024, 64]`) and a block of 1024 points of the second set laid out one point per COLUMN (`[64, 1024]`), read at
  the tile entry `(p, q)`.

  The body's three non-pointwise values are read first. The row sums of squares are kept as a column `[1024, 1]` and
  broadcast over the tile: at `(p, q)` that is the sum over the 64 coordinates of row `p`'s squares. The column sums
  of squares are kept as a row `[1, 1024]` and broadcast: at `(p, q)` the sum over the 64 coordinates of column `q`'s
  squares. The matrix product of the two blocks, taken on operands narrowed to sixteen bits (no change of value on the
  extended reals) into a zero accumulator, is at `(p, q)` the sum over the coordinates of row `p` times column `q`.
  The rest of the body is pointwise, so the entry is `entry` of these three sums.
-/
import proofs.«109932_j65481071398549_1_alg».proof.Proof.Gen.KernelIdeal.Skeleton
import proofs.«109932_j65481071398549_1_alg».proof.Proof.RbfSpec
import proofs.«109932_j65481071398549_1_alg».proof.Proof.LibKeepdims
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.Rbf.Tile

open Cert.KernelIdeal Cert.KernelIdeal.Gen Idealize.ShloMosaic Idealize.ShloMosaic.ValueIdx Cert.LibKeepdims

/-! ## The two sums of squares, broadcast over the tile -/

/-- The row sums of squares, kept as a column and broadcast: at `(p, q)` the squares of row `p` summed. -/
theorem rowSq_apply (x : FVec Ideal S1024x64 .f32) (h1 : S1024x64.Reduces [1] S1024) (hφ : FKind.Formats .f32)
    (hacc : (0x00000000#32 : BitVec 32) = FKind.add.neutral .f32 hφ) (h2 : S1024.ShapeCasts S1024x1)
    (h3 : S1024x1.Broadcasts S1024x1024) (p q : Fin 1024) :
    broadcastTo S1024x1024 (shapeCast S1024x1 (multiReduction .add [1] S1024 (mulf x x) 0x00000000#32 h1 hφ hacc) h2) h3 (ix2 p q)
      = ∑ k : Fin 64, x (ix2 p k) * x (ix2 p k) := by
  refine (broadcastTo_a1_ab_apply _ h3 p q).trans ?_
  refine (shapeCast_a_a1_apply _ h2 p 0).trans ?_
  refine (Ideal.multiReduction_add_single (mulf x x) 0x00000000#32 h1 hφ hacc (ix1 p)).trans ?_
  refine Finset.sum_congr rfl fun k _ => ?_
  have e : h1.lift (ix1 p) k = ix2 p k :=
    funext fun a => Fin.ext (by match a with | ⟨0, _⟩ => rfl | ⟨1, _⟩ => rfl)
  rw [e]
  rfl

/-- The column sums of squares, kept as a row and broadcast: at `(p, q)` the squares of column `q` summed. -/
theorem colSq_apply (y : FVec Ideal S64x1024 .f32) (h1 : S64x1024.Reduces [0] S1024) (hφ : FKind.Formats .f32)
    (hacc : (0x00000000#32 : BitVec 32) = FKind.add.neutral .f32 hφ) (h2 : S1024.ShapeCasts S1x1024)
    (h3 : S1x1024.Broadcasts S1024x1024) (p q : Fin 1024) :
    broadcastTo S1024x1024 (shapeCast S1x1024 (multiReduction .add [0] S1024 (mulf y y) 0x00000000#32 h1 hφ hacc) h2) h3 (ix2 p q)
      = ∑ k : Fin 64, y (ix2 k q) * y (ix2 k q) := by
  refine (broadcastTo_1b_ab_apply _ h3 p q).trans ?_
  refine (shapeCast_a_1a_apply _ h2 0 q).trans ?_
  refine (Ideal.multiReduction_add_single (mulf y y) 0x00000000#32 h1 hφ hacc (ix1 q)).trans ?_
  refine Finset.sum_congr rfl fun k _ => ?_
  have e : h1.lift (ix1 q) k = ix2 k q :=
    funext fun a => Fin.ext (by match a with | ⟨0, _⟩ => rfl | ⟨1, _⟩ => rfl)
  rw [e]
  rfl

/-! ## The product of the two blocks -/

/-- The left operand's row is the entry's row … -/
theorem lhs_tile_0 (i : S1024x1024.Idx) (c : dot_S1024x64_S64x1024_S1024x1024_1_0_0_1_n_n.contr.Idx) :
    (dot_S1024x64_S64x1024_S1024x1024_1_0_0_1_n_n.lhsIdx i c 0).val = (i 0).val := by
  unfold DotDims.lhsIdx
  rw [dif_neg (show ¬(0 : Fin S1024x64.rank) ∈ dot_S1024x64_S64x1024_S1024x1024_1_0_0_1_n_n.lhsBatch by decide), dif_pos (show (0 : Fin S1024x64.rank) ∈ dot_S1024x64_S64x1024_S1024x1024_1_0_0_1_n_n.lhsNonContracting by decide)]
  rfl
/-- … its column the contracted coordinate; -/
theorem lhs_tile_1 (i : S1024x1024.Idx) (c : dot_S1024x64_S64x1024_S1024x1024_1_0_0_1_n_n.contr.Idx) :
    (dot_S1024x64_S64x1024_S1024x1024_1_0_0_1_n_n.lhsIdx i c 1).val = (c ⟨0, by decide⟩).val :=
  dot_S1024x64_S64x1024_S1024x1024_1_0_0_1_n_n.lhsIdx_val_of_single rfl i c
/-- the right operand's row is the contracted coordinate … -/
theorem rhs_tile_0 (i : S1024x1024.Idx) (c : dot_S1024x64_S64x1024_S1024x1024_1_0_0_1_n_n.contr.Idx) :
    (dot_S1024x64_S64x1024_S1024x1024_1_0_0_1_n_n.rhsIdx i c 0).val = (c ⟨0, by decide⟩).val :=
  dot_S1024x64_S64x1024_S1024x1024_1_0_0_1_n_n.rhsIdx_val_of_single rfl i c
/-- … and its column the entry's column. -/
theorem rhs_tile_1 (i : S1024x1024.Idx) (c : dot_S1024x64_S64x1024_S1024x1024_1_0_0_1_n_n.contr.Idx) :
    (dot_S1024x64_S64x1024_S1024x1024_1_0_0_1_n_n.rhsIdx i c 1).val = (i 1).val := by
  unfold DotDims.rhsIdx
  rw [dif_neg (show ¬(1 : Fin S64x1024.rank) ∈ dot_S1024x64_S64x1024_S1024x1024_1_0_0_1_n_n.rhsBatch by decide), dif_pos (show (1 : Fin S64x1024.rank) ∈ dot_S1024x64_S64x1024_S1024x1024_1_0_0_1_n_n.rhsNonContracting by decide)]
  rfl

/-- The product into a zero accumulator, its operands narrowed: at `(p, q)` row `p` of the first block against
    column `q` of the second, summed over the 64 coordinates. -/
theorem prod_apply (x : FVec Ideal S1024x64 .f32) (y : FVec Ideal S64x1024 .f32) (hb : FTy.bits .bf16 < FTy.bits .f32)
    (p q : Fin 1024) :
    matmul dot_S1024x64_S64x1024_S1024x1024_1_0_0_1_n_n none (truncf .bf16 x hb) (truncf .bf16 y hb) (constant S1024x1024 .f32 0x00000000#32) (ix2 p q)
      = ∑ k : Fin 64, x (ix2 p k) * y (ix2 k q) := by
  simp only [matmul]
  rw [Ideal.matmul_constant_zero_apply, ← Equiv.sum_comp (contrEquiv1 dot_S1024x64_S64x1024_S1024x1024_1_0_0_1_n_n 64 rfl rfl).symm]
  refine Finset.sum_congr rfl fun k _ => ?_
  have hk := contrEquiv1_symm_val dot_S1024x64_S64x1024_S1024x1024_1_0_0_1_n_n 64 rfl rfl k
  have el : dot_S1024x64_S64x1024_S1024x1024_1_0_0_1_n_n.lhsIdx (ix2 p q) ((contrEquiv1 dot_S1024x64_S64x1024_S1024x1024_1_0_0_1_n_n 64 rfl rfl).symm k) = ix2 p k := funext fun a => Fin.ext (by
    match a with
    | ⟨0, _⟩ => exact lhs_tile_0 _ _
    | ⟨1, _⟩ => exact (lhs_tile_1 _ _).trans hk)
  have er : dot_S1024x64_S64x1024_S1024x1024_1_0_0_1_n_n.rhsIdx (ix2 p q) ((contrEquiv1 dot_S1024x64_S64x1024_S1024x1024_1_0_0_1_n_n 64 rfl rfl).symm k) = ix2 k q := funext fun a => Fin.ext (by
    match a with
    | ⟨0, _⟩ => exact (rhs_tile_0 _ _).trans hk
    | ⟨1, _⟩ => exact rhs_tile_1 _ _)
  rw [el, er]
  rfl

/-! ## The tile entry -/

/-- The body's stored value at tile entry `(p, q)`: `entry` of row `p`'s squared norm, column `q`'s squared norm and
    their inner product. -/
theorem tile_apply (x : Vec Ideal S1024x64 .f32) (yt : Vec Ideal S64x1024 .f32) (p q : Fin 1024) :
    k0_pay1 (F := Ideal) x yt (ix2 p q)
      = entry (∑ k : Fin 64, x (ix2 p k) * x (ix2 p k)) (∑ k : Fin 64, yt (ix2 k q) * yt (ix2 k q))
          (∑ k : Fin 64, x (ix2 p k) * yt (ix2 k q)) := by
  have hS : shapeCast S64x1024 yt shapeCasts_S64x1024_S64x1024 = yt := shapeCast_self yt _
  have hR := rowSq_apply x reduces_S1024x64_S1024 (.inl rfl) rfl shapeCasts_S1024_S1024x1 broadcasts_S1024x1_S1024x1024 p q
  have hC := (colSq_apply (shapeCast S64x1024 yt shapeCasts_S64x1024_S64x1024) reduces_S64x1024_S1024 (.inl rfl) rfl
    shapeCasts_S1024_S1x1024 broadcasts_S1x1024_S1024x1024 p q).trans (by rw [hS])
  have hM := (prod_apply x (shapeCast S64x1024 yt shapeCasts_S64x1024_S64x1024) bitsLt_bf16_f32 p q).trans (by rw [hS])
  unfold entry
  rw [← hR, ← hC, ← hM, ← Ideal.ofBits_zero_f32]
  rfl

end Cert.Rbf.Tile

end
-- ==== Proof.RbfArray.lean ====
/-
  From tiles to the whole matrix. The grid is 8 × 8: point `(bi, bj)` reads rows `1024·bi …` of the first set, columns
  `1024·bj …` of the second set TRANSPOSED (the host lays the second set out one point per column before the region),
  and writes tile `(bi, bj)` of the result. A block's entry at `(p, k)` is its array's at
  (block index × block size + p, …) on each axis, so the tile's three sums are the sums of `rbf` at the array entry
  `(1024·bi + p, 1024·bj + q)`; the 64 tiles partition the 8192 × 8192 matrix (entry `i` lies in the tile with block
  indices `i / 1024`), so after the run the result array is `rbf` of the two arguments.
-/
import proofs.«109932_j65481071398549_1_alg».proof.Proof.Gen.KernelIdeal.Value
import proofs.«109932_j65481071398549_1_alg».proof.Proof.RbfTile
import Idealize.ShloMosaic.Lib.StableHlo.Run
import Idealize.ShloMosaic.Lib.ValueLayout

set_option maxRecDepth 16384

noncomputable section

open scoped BigOperators

namespace Cert.Rbf.Array

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The arrays the region finds -/

/-- The second window's array is the second argument transposed: the one host operation before the region. -/
theorem secondT (c : Dev nD) : (V m c main_v0 : S64x8192.Idx → EReal)
    = transpose S64x8192 [1, 0] (m ((c : Thread nD τ).loc main_arg1)) transposes_S8192x64_S64x8192_1_0 := by
  dsimp only [Gen.V, Gen.hostOps0]; after_results

/-- So at `(k, q)` it holds coordinate `k` of the second set's point `q`. -/
theorem secondT_apply (c : Dev nD) (k : Fin 64) (q : Fin 8192) :
    V m c main_v0 (ix2 k q) = m ((c : Thread nD τ).loc main_arg1) (ix2 q k) := by
  rw [secondT]
  exact transpose_ix2_apply _ _ k q

/-! ## One tile, its blocks cut from the arrays -/

/-- A tile whose row block is rows `1024·bi + p` of `X` and whose column block is columns `1024·bj + q` of the
    transposed `Y` is the matching tile of `rbf X Y`. -/
theorem tile_of_blocks (X Y : FVec Ideal Rbf.Pts .f32) (YT : FVec Ideal S64x8192 .f32)
    (hYT : ∀ (k : Fin 64) (q : Fin 8192), YT (ix2 k q) = Y (ix2 q k))
    (x : Vec Ideal S1024x64 .f32) (yt : Vec Ideal S64x1024 .f32) (P Q : Fin 1024 → Fin 8192)
    (hx : ∀ (p : Fin 1024) (k : Fin 64), x (ix2 p k) = X (ix2 (P p) k))
    (hy : ∀ (k : Fin 64) (q : Fin 1024), yt (ix2 k q) = YT (ix2 k (Q q)))
    (p q : Fin 1024) :
    k0_pay1 (F := Ideal) x yt (ix2 p q) = rbf X Y (ix2 (P p) (Q q)) := by
  rw [Tile.tile_apply, rbf_apply]
  unfold sqNorm inner
  simp only [hx, hy, hYT]

/-! ## The grid -/

theorem offsets_zero : (![0, 0] : Fin 2 → Nat) = fun _ => 0 := funext fun a => by fin_cases a <;> rfl

/-- The printed index maps over the 64 points: the row block follows the tile's row, the column block the tile's
    column, the other block index of each input is zero, and the tile's indices stay below 8. -/
theorem index_maps : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = win0_2.index t (1 : Fin 2)
    ∧ win0_2.index t (0 : Fin 2) ≤ 7 ∧ win0_2.index t (1 : Fin 2) ≤ 7 :=
  (by decide +kernel : ∀ t : Fin grid0.N, _)

/-- Every tile of the 8 × 8 partition is some point's. -/
theorem tiles_onto : ∀ (b0 b1 : Fin 8), ∃ t : Fin cfg0.N, win0_2.index t = ![b0.val, b1.val] :=
  (by decide +kernel : ∀ (b0 b1 : Fin 8), ∃ t : Fin grid0.N, win0_2.index t = ![b0.val, b1.val])

/-- WHAT POINT `t` WRITES BACK is tile `t` of `rbf` of the two arguments. -/
theorem flushed_eq (c : Dev nD) (t : Fin cfg0.N) :
    (dats m 0 c).flushed 2 t
      = ((cfg0.win 2).blk t).view.read (Elt Ideal) (rbf (m ((c : Thread nD τ).loc main_arg0)) (m ((c : Thread nD τ).loc main_arg1))) := by
  rw [Value.flushed2]
  unfold out0_2
  rw [View.canon_unit_zero offsets_zero]
  simp only [View.ld_unit_zero (S := S1024x64) offsets_zero, View.ld_unit_zero (S := S64x1024) offsets_zero]
  obtain ⟨e0, e1, e2, e3, e4, e5⟩ := index_maps t
  funext j
  obtain ⟨p, q, rfl⟩ : ∃ (p q : Fin 1024), j = ix2 p q := ⟨j 0, j 1, eq_ix2 j⟩
  have hP : ∀ p : Fin 1024, win0_2.index t (0 : Fin 2) * 1024 + p.val < 8192 := fun p => by have := p.isLt; omega
  have hQ : ∀ q : Fin 1024, win0_2.index t (1 : Fin 2) * 1024 + q.val < 8192 := fun q => by have := q.isLt; omega
  refine (tile_of_blocks (m ((c : Thread nD τ).loc main_arg0)) (m ((c : Thread nD τ).loc main_arg1)) (V m c main_v0)
    (secondT_apply m c) (iblk m c 0 t) (iblk m c 1 t) (fun p => ⟨_, hP p⟩) (fun q => ⟨_, hQ q⟩) ?_ ?_ p q).trans ?_
  · intro p k
    show V m c main_arg0 (((cfg0.win 0).blk t).view.emb (ix2 p k)) = m ((c : Thread nD τ).loc main_arg0) _
    rw [V_main_arg0]
    refine congrArg _ (funext fun a => Fin.ext ?_)
    match a with
    | ⟨0, _⟩ => show win0_0.index t (0 : Fin 2) * 1024 + 1 * p.val = win0_2.index t (0 : Fin 2) * 1024 + p.val; omega
    | ⟨1, _⟩ => show win0_0.index t (1 : Fin 2) * 64 + 1 * k.val = k.val; omega
  · intro k q
    show V m c main_v0 (((cfg0.win 1).blk t).view.emb (ix2 k q)) = V m c main_v0 _
    refine congrArg _ (funext fun a => Fin.ext ?_)
    match a with
    | ⟨0, _⟩ => show win0_1.index t (0 : Fin 2) * 64 + 1 * k.val = k.val; omega
    | ⟨1, _⟩ => show win0_1.index t (1 : Fin 2) * 1024 + 1 * q.val = win0_2.index t (1 : Fin 2) * 1024 + q.val; omega
  · show rbf _ _ _ = rbf _ _ (((cfg0.win 2).blk t).view.emb (ix2 p q))
    refine congrArg _ (funext fun a => Fin.ext ?_)
    match a with
    | ⟨0, _⟩ => show win0_2.index t (0 : Fin 2) * 1024 + p.val = win0_2.index t (0 : Fin 2) * 1024 + 1 * p.val; omega
    | ⟨1, _⟩ => show win0_2.index t (1 : Fin 2) * 1024 + q.val = win0_2.index t (1 : Fin 2) * 1024 + 1 * q.val; omega

/-! ## The tiles partition the matrix -/

/-- An entry of the matrix is in point `t`'s tile iff each coordinate is in the tile's range on its axis. -/
theorem mem_tile (t : Fin cfg0.N) (i : S8192x8192.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v1).slice (win0_2.rect t)).set ↔ _
  rw [View.set_slice_whole, Rect.mem_set_unit]
  exact Iff.rfl

/-- Every entry is in some point's tile: the one with block indices `i / 1024`. -/
theorem covered (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := tiles_onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_tile]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- THE RESULT ARRAY after the run is `rbf` of the two arguments. -/
theorem final (c : Dev nD) :
    (dats m 0 c).arrAt 2 cfg0.N = rbf (m ((c : Thread nD τ).loc main_arg0)) (m ((c : Thread nD τ).loc main_arg1)) :=
  (dats m 0 c).arrAt_eq_of_cover 2 _ (fun t _ => flushed_eq m c t) covered

/-! ## The run, read -/

/-- Every weakly fair execution of the kernel's program ends with the result array at `rbf` of the arguments and the
    arguments unchanged. -/
theorem run : θ_run defs (onTc (τ := τ) (main (F := Ideal))) ⟨m, fun _ => 0, ρ⟩ fun r => ∀ c : Dev nD,
      r.2.mem ((c : Thread nD τ).loc main_v1) = rbf (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.Rbf.Array

end
-- ==== Proof.RbfReference.lean ====
/-
  The reference's result is the kernel matrix `rbf` of its two arguments, entry by entry.

  Read one operation at a time at the entry `(p, q)`: the two row sums of squares reach it through two broadcasts each
  (a kept unit axis, then the full matrix), so the first is `‖A_p‖²` and the second `‖B_q‖²`; the matrix product of `A`
  with the transpose of `B` contracts the 64 coordinates, and the transposed operand at `(k, q)` is `B` at `(q, k)`, so
  it is `⟨A_p, B_q⟩`. Each host sum starts from the zero word, the additive unit. What is left is the same scalar
  expression as `entry`.
-/
import proofs.«109932_j65481071398549_1_alg».proof.Proof.Gen.ReferenceIdeal.Read
import proofs.«109932_j65481071398549_1_alg».proof.Proof.RbfSpec

noncomputable section

open scoped BigOperators

namespace Cert.Rbf.Reference

open Cert.ReferenceIdeal Cert.ReferenceIdeal.Read Idealize.ShloMosaic Idealize.ShloMosaic.ValueIdx

/-- Through the two broadcasts, the first squared norm at entry `(p, q)` sums row `p`. -/
theorem idx_rowsq (p q : Fin 8192) (k : Fin 64) : idx_main_v1 (idx_main_v6 (idx_main_v8 (ix2 p q))) k = ix2 p k :=
  funext fun a => Fin.ext (by match a with | ⟨0, _⟩ => rfl | ⟨1, _⟩ => rfl)

/-- Through the two broadcasts, the second squared norm at entry `(p, q)` sums row `q`. -/
theorem idx_colsq (p q : Fin 8192) (k : Fin 64) : idx_main_v3 (idx_main_v7 (idx_main_v9 (ix2 p q))) k = ix2 q k :=
  funext fun a => Fin.ext (by match a with | ⟨0, _⟩ => rfl | ⟨1, _⟩ => rfl)

/-- The product's left factor at entry `(p, q)` and contraction index `k` is `A` at `(p, k)`. -/
theorem idx_lhs (p q : Fin 8192) (k : Fin 64) : lidx_main_v5 (ix2 p q) k = ix2 p k :=
  funext fun a => Fin.ext (by match a with | ⟨0, _⟩ => rfl | ⟨1, _⟩ => rfl)

/-- Its right factor is the transpose at `(k, q)`, that is `B` at `(q, k)`. -/
theorem idx_rhs (p q : Fin 8192) (k : Fin 64) : idx_main_v4 (ridx_main_v5 (ix2 p q) k) = ix2 q k :=
  funext fun a => Fin.ext (by match a with | ⟨0, _⟩ => rfl | ⟨1, _⟩ => rfl)

/-- The reference's last stage is `rbf` of the two arguments. -/
theorem result_eq (x0 x1 : (⟨S8192x64, .f32⟩ : BufTy).Contents (Elt Ideal)) :
    val_main_v18 (F := Ideal) x0 x1 = rbf x0 x1 := by
  funext i
  obtain ⟨p, q, rfl⟩ : ∃ (p q : Fin 8192), i = ix2 p q := ⟨i 0, i 1, eq_ix2 i⟩
  rw [rbf_apply, val_main_v18_apply, val_main_v17_apply, val_main_v16_apply, val_main_cst_3_apply, val_main_v15_apply,
    val_main_v14_apply, val_main_cst_2_apply, val_main_v13_apply, val_main_v12_apply, val_main_v11_apply,
    val_main_cst_1_apply, val_main_v10_apply, val_main_v8_apply, val_main_v6_apply, val_main_v1_apply,
    val_main_v9_apply, val_main_v7_apply, val_main_v3_apply, val_main_v5_apply]
  simp only [val_main_v0_apply, val_main_v2_apply, val_main_v4_apply, val_main_cst_apply, val_main_cst_0_apply,
    idx_rowsq, idx_colsq, idx_lhs, idx_rhs, Ideal.hostUnary_exp_def, Ideal.mulf_def, Ideal.addf_def, Ideal.subf_def,
    Ideal.maximumf_def, Ideal.ofBits_def, Ideal.ofBits_zero_f32, zero_add, entry, sqNorm, inner]

end Cert.Rbf.Reference

end
-- ==== Proof.lean ====
/- The radial-basis-function kernel matrix, tiled, against the same matrix computed whole.

   Both programs compute, for two sets of 8192 points in 64 coordinates, the matrix whose entry at `(p, q)` is
   `exp (-1 · max (‖A_p‖² + ‖B_q‖² - 2 · ⟨A_p, B_q⟩) 0)` (Proof/RbfSpec.lean, `rbf`). The kernel cuts the matrix into
   8 × 8 tiles of 1024 × 1024: a tile reads 1024 rows of the first set and 1024 columns of the second set transposed,
   takes the two sums of squares on the blocks and the blocks' matrix product on operands narrowed to sixteen bits,
   and finishes pointwise (Proof/RbfTile.lean reads a tile's entry; Proof/RbfArray.lean places the tiles in the matrix).
   The reference takes the same three sums on the whole arrays and broadcasts them (Proof/RbfReference.lean). On the
   extended reals a narrowing of format changes no value and a sum over the 64 coordinates is one sum however the
   points are tiled or laid out, so the two results are the same function of the arguments, entry by entry; no
   finiteness of the inputs is used. Nothing was rewritten between the kernel and its reading on the extended reals,
   so that claim is trivial; the three programs' runs leave their arguments unchanged. -/
import proofs.«109932_j65481071398549_1_alg».proof.Defs
import proofs.«109932_j65481071398549_1_alg».proof.Proof.Gen.Kernel
import proofs.«109932_j65481071398549_1_alg».proof.Proof.Gen.Kernel.Skeleton
import proofs.«109932_j65481071398549_1_alg».proof.Proof.Gen.Kernel.Launch
import proofs.«109932_j65481071398549_1_alg».proof.Proof.Gen.Kernel.Points
import proofs.«109932_j65481071398549_1_alg».proof.Proof.Gen.Kernel.Frame
import proofs.«109932_j65481071398549_1_alg».proof.Proof.Gen.KernelIdeal
import proofs.«109932_j65481071398549_1_alg».proof.Proof.Gen.KernelIdeal.Skeleton
import proofs.«109932_j65481071398549_1_alg».proof.Proof.Gen.KernelIdeal.Launch
import proofs.«109932_j65481071398549_1_alg».proof.Proof.Gen.KernelIdeal.Points
import proofs.«109932_j65481071398549_1_alg».proof.Proof.Gen.KernelIdeal.Frame
import proofs.«109932_j65481071398549_1_alg».proof.Proof.Gen.ReferenceIdeal
import proofs.«109932_j65481071398549_1_alg».proof.Proof.Gen.Pre_finite_inputs
import proofs.«109932_j65481071398549_1_alg».proof.Proof.Gen.KernelIdeal.Value
import proofs.«109932_j65481071398549_1_alg».proof.Proof.Gen.ReferenceIdeal.Run
import proofs.«109932_j65481071398549_1_alg».proof.Proof.Gen.ReferenceIdeal.Read
import proofs.«109932_j65481071398549_1_alg».proof.Proof.RbfArray
import proofs.«109932_j65481071398549_1_alg».proof.Proof.RbfReference
import Idealize.ShloMosaic.Adequacy
import Idealize.ShloMosaic.Init

noncomputable section

namespace Cert.Proof

open Idealize.ShloMosaic Idealize.ShloMosaic.TcCoe Idealize.SL.Sem

/-- The kernel's run terminates without a fault and leaves both point sets as they were. -/
theorem frame_kernel : Cert.frame_Kernel := fun m ρ _ => Cert.Kernel.Gen.frame m ρ

/-- The same of the kernel read on the extended reals. -/
theorem frame_kernelIdeal : Cert.frame_KernelIdeal := fun m ρ _ => Cert.KernelIdeal.Gen.frame m ρ

/-- The reference's run likewise: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten for the reading on the extended reals. -/
theorem preserves : Cert.preserves_Kernel_KernelIdeal := trivial

/-- From memories that agree on the two point sets both runs end with the result array at `rbf` of them. -/
theorem algebraic : Cert.algebraic_KernelIdeal_ReferenceIdeal := by
  intro m ρ m' ρ' _ hagree
  refine ⟨fun c => Cert.Rbf.rbf (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.Rbf.Array.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.Rbf.Reference.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
